-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x256 : Shape := ⟨3, ![512, 512, 256]⟩
abbrev S_ : Shape := ⟨0, ![]⟩

class Facts : Prop where
  bcast_S_S512x512x256 : S_.BroadcastsInDim S512x512x256 (![] : Fin 0 → Fin S512x512x256.rank)
  reducesTo_S512x512x256_S_d0_1_2 : S512x512x256.ReducesTo [0, 1, 2] S_
  h_S_ : 0 < S_.numel

variable [Facts]

def fn {F : FTy → Type} [FloatOps F] (main_arg0 : FVec F S512x512x256 .f32) (main_arg1 : FVec F S512x512x256 .f32) : IVec S_ 1 :=
  let main_v0 : FVec F S512x512x256 .f32 := Host.absf main_arg0
  let main_cst : FVec F S_ .f32 := constant S_ .f32 0x7F800000#32
  let main_v1 : FVec F S512x512x256 .f32 := broadcastInDim S512x512x256 ![] bcast_S_S512x512x256 main_cst
  let main_v2 : IVec S512x512x256 1 := cmpf .olt main_v0 main_v1
  let main_c : IVec S_ 1 := constantI S_ 1 1#1
  let main_v3 : IVec S_ 1 := (fun x v => Host.reduce IntOp.andi x v reducesTo_S512x512x256_S_d0_1_2 h_S_) main_v2 main_c
  let main_v4 : FVec F S512x512x256 .f32 := Host.absf main_arg1
  let main_cst_0 : FVec F S_ .f32 := constant S_ .f32 0x7F800000#32
  let main_v5 : FVec F S512x512x256 .f32 := broadcastInDim S512x512x256 ![] bcast_S_S512x512x256 main_cst_0
  let main_v6 : IVec S512x512x256 1 := cmpf .olt main_v4 main_v5
  let main_c_1 : IVec S_ 1 := constantI S_ 1 1#1
  let main_v7 : IVec S_ 1 := (fun x v => Host.reduce IntOp.andi x v reducesTo_S512x512x256_S_d0_1_2 h_S_) main_v6 main_c_1
  let main_v8 : IVec S_ 1 := andi main_v3 main_v7
  main_v8
-- ==== Kernel.lean ====
abbrev S512x512x256 : Shape := ⟨3, ![512, 512, 256]⟩
abbrev S512x512x512 : Shape := ⟨3, ![512, 512, 512]⟩
abbrev S4x512x256 : Shape := ⟨3, ![4, 512, 256]⟩
abbrev S4x512x512 : Shape := ⟨3, ![4, 512, 512]⟩
abbrev S4x512 : Shape := ⟨2, ![4, 512]⟩
abbrev S4x512x1 : Shape := ⟨3, ![4, 512, 1]⟩
abbrev S4x1x512 : Shape := ⟨3, ![4, 1, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x512x256, .f32⟩
  | .hbm, ⟨1, _⟩ => ⟨S512x512x256, .f32⟩
  | .hbm, ⟨2, _⟩ => ⟨S512x512x512, .f32⟩
  | .local _ .vmem, ⟨0, _⟩ => ⟨S4x512x256, .f32⟩
  | .local _ .vmem, ⟨1, _⟩ => ⟨S4x512x256, .f32⟩
  | .local _ .vmem, ⟨2, _⟩ => ⟨S4x512x256, .f32⟩
  | .local _ .vmem, ⟨3, _⟩ => ⟨S4x512x256, .f32⟩
  | .local _ .vmem, ⟨4, _⟩ => ⟨S4x512x512, .f32⟩
  | .local _ .vmem, ⟨5, _⟩ => ⟨S4x512x512, .f32⟩
  | _, _ => ⟨S512x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x512x256_S4x512x256_0_0_0 : ∀ a, (![0, 0, 0] : Fin 3 → Nat) a + S4x512x256.size a ≤ S4x512x256.size a
  h_S4x512x256 : 0 < S4x512x256.numel
  reduces_S4x512x256_S4x512 : S4x512x256.Reduces [2] S4x512
  shapeCasts_S4x512_S4x512x1 : S4x512.ShapeCasts S4x512x1
  bitsLt_bf16_f32 : FTy.bits .bf16 < FTy.bits .f32
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  inb_S4x512x512_S4x512x512_0_0_0 : ∀ a, (![0, 0, 0] : Fin 3 → Nat) a + S4x512x512.size a ≤ S4x512x512.size a
  h_S4x512x512 : 0 < S4x512x512.numel
  dot_S4x512x256_S4x512x256_S4x512x512_2_2_1_1_0_0_wf : DotDims.WF S4x512x256 S4x512x256 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x256.size a ≤ S512x512x256.size a
  hwx0_0 : ∀ i : grid0.Coords, EltTy.bits .f32 = 32 ∨ (Rect.block (s := S512x512x256) S4x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x256.size a ≤ S512x512x256.size a
  hwx0_1 : ∀ i : grid0.Coords, EltTy.bits .f32 = 32 ∨ (Rect.block (s := S512x512x256) S4x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x512.size a ≤ S512x512x512.size a
  hwx0_2 : ∀ i : grid0.Coords, EltTy.bits .f32 = 32 ∨ (Rect.block (s := S512x512x512) S4x512x512.size (cc0_transform_2 i) (hinb0_2 i)).WholeWords (EltTy.packing .f32)

variable [Facts₀]

def dot_S4x512x256_S4x512x256_S4x512x512_2_2_1_1_0_0 : DotDims S4x512x256 S4x512x256 S4x512x512 where
  lhsContracting := [2]
  rhsContracting := [2]
  lhsNonContracting := [1]
  rhsNonContracting := [1]
  lhsBatch := [0]
  rhsBatch := [0]
  wf := dot_S4x512x256_S4x512x256_S4x512x512_2_2_1_1_0_0_wf

abbrev win0_0 : Pipeline.Window sig grid0 :=
  Pipeline.Window.ofSpec (Memref.whole main_arg0) S4x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x512x256 : Shape := ⟨3, ![512, 512, 256]⟩
abbrev S_ : Shape := ⟨0, ![]⟩
abbrev S512x512 : Shape := ⟨2, ![512, 512]⟩
abbrev S512x512x512 : Shape := ⟨3, ![512, 512, 512]⟩
abbrev S512x512x1 : Shape := ⟨3, ![512, 512, 1]⟩
abbrev S512x1x512 : Shape := ⟨3, ![512, 1, 512]⟩

abbrev nBuf : Space → Nat
  | .hbm => 25
  | .vmem => 0
  | .smem => 0
  | _ => 0

abbrev bufTy : (tb : Table) → Fin (tcTables nBuf tb) → BufTy
  | .hbm, ⟨0, _⟩ => ⟨S512x512x256, .f32⟩
  | .hbm, ⟨1, _⟩ => ⟨S512x512x256, .f32⟩
  | .hbm, ⟨2, _⟩ => ⟨S_, .f32⟩
  | .hbm, ⟨3, _⟩ => ⟨S512x512x256, .f32⟩
  | .hbm, ⟨4, _⟩ => ⟨S512x512x256, .f32⟩
  | .hbm, ⟨5, _⟩ => ⟨S512x512x256, .f32⟩
  | .hbm, ⟨6, _⟩ => ⟨S_, .f32⟩
  | .hbm, ⟨7, _⟩ => ⟨S512x512, .f32⟩
  | .hbm, ⟨8, _⟩ => ⟨S512x512x256, .f32⟩
  | .hbm, ⟨9, _⟩ => ⟨S_, .f32⟩
  | .hbm, ⟨10, _⟩ => ⟨S512x512, .f32⟩
  | .hbm, ⟨11, _⟩ => ⟨S512x512x512, .f32⟩
  | .hbm, ⟨12, _⟩ => ⟨S512x512x1, .f32⟩
  | .hbm, ⟨13, _⟩ => ⟨S512x1x512, .f32⟩
  | .hbm, ⟨14, _⟩ => ⟨S512x512x512, .f32⟩
  | .hbm, ⟨15, _⟩ => ⟨S512x512x512, .f32⟩
  | .hbm, ⟨16, _⟩ => ⟨S512x512x512, .f32⟩
  | .hbm, ⟨17, _⟩ => ⟨S_, .f32⟩
  | .hbm, ⟨18, _⟩ => ⟨S512x512x512, .f32⟩
  | .hbm, ⟨19, _⟩ => ⟨S512x512x512, .f32⟩
  | .hbm, ⟨20, _⟩ => ⟨S512x512x512, .f32⟩
  | .hbm, ⟨21, _⟩ => ⟨S_, .f32⟩
  | .hbm, ⟨22, _⟩ => ⟨S512x512x512, .f32⟩
  | .hbm, ⟨23, _⟩ => ⟨S512x512x512, .f32⟩
  | .hbm, ⟨24, _⟩ => ⟨S512x512x512, .f32⟩
  | _, _ => ⟨S512x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S512x512x256 : S_.BroadcastsInDim S512x512x256 (![] : Fin 0 → Fin S512x512x256.rank)
  reducesTo_S512x512x256_S512x512_d2 : S512x512x256.ReducesTo [2] S512x512
  h_S_ : 0 < S_.numel
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  dot_S512x512x256_S512x512x256_S512x512x512_2_2_1_1_0_0_wf : DotDims.WF S512x512x256 S512x512x256 S512x512x512 [2] [2] [1] [1] [0] [0]

variable [Facts₀]

def dot_S512x512x256_S512x512x256_S512x512x512_2_2_1_1_0_0 : DotDims S512x512x256 S512x512x256 S512x512x512 where
  lhsContracting := [2]
  rhsContracting := [2]
  lhsNonContracting := [1]
  rhsNonContracting := [1]
  lhsBatch := [0]
  rhsBatch := [0]
  wf := dot_S512x512x256_S512x512x256_S512x512x512_2_2_1_1_0_0_wf

class Facts : Prop extends Facts₀ where

variable [Facts]
-- ==== Proof.RowDistance.lean ====
/-
  The specification: the matrix of shifted Euclidean distances, entry by entry, on the extended reals.

  For two batches of row vectors `a, b : [512, 512, 256]` the result at `(n, i, j)` is the distance between row
  `(n, i)` of `a` and row `(n, j)` of `b` after every entry of `b` has been lowered by the shift `ε`, written by
  the norm identity `‖x − y‖² = ‖x‖² + ‖y‖² − 2 x·y` exactly as both programs spell it:
  `√ max ((∑ x² + ∑ y²) − 2 · ∑ x y, 0)` with `y = b − ε`.  Nothing here is expanded or regrouped: the two programs
  compute these very sums in this very order, so no law of the extended reals beyond `0 + s = s` is needed to join them.
-/
import Idealize.ShloMosaic.PureOps.Ideal
import Idealize.ShloMosaic.Lib.ValueIdx

noncomputable section

namespace Cert.PairDist

open Idealize.ShloMosaic Idealize.ShloMosaic.ValueIdx

/-- The shift `ε` taken off every entry of the second operand: the single-precision number nearest `10⁻⁶`, at its exact
    binary value (both programs carry the same word, so its value is never needed). -/
abbrev shift : EReal := Ideal.ofBits .f32 0x358637BD#32

/-- The factor of the cross term, the word of `2.0`. -/
abbrev twice : EReal := Ideal.ofBits .f32 0x40000000#32

/-- The distance between a row `x` of the first operand and a row `y` of the second, the second shifted by `ε`:
    `√ max ((∑ₖ xₖ² + ∑ₖ (yₖ − ε)²) − 2 · ∑ₖ xₖ (yₖ − ε), 0)`. -/
def rowDist (x y : Fin 256 → EReal) : EReal :=
  Ideal.sqrt (max (((∑ k : Fin 256, x k * x k) + ∑ k : Fin 256, (y k - shift) * (y k - shift))
    - twice * ∑ k : Fin 256, x k * (y k - shift)) 0)

/-- The whole result: entry `(n, i, j)` is the distance between row `(n, i)` of `a` and row `(n, j)` of `b`. -/
def dist (a b : (⟨3, ![512, 512, 256]⟩ : Shape).Idx → EReal) : (⟨3, ![512, 512, 512]⟩ : Shape).Idx → EReal :=
  fun i => rowDist (fun k => a (ix3 (i 0) (i 1) k)) (fun k => b (ix3 (i 0) (i 2) k))

end Cert.PairDist

end
-- ==== Proof.BlockValue.lean ====
/-
  One grid step of the kernel computes the specification on its slab of four batches.

  The body loads a `[4, 512, 256]` slab `x` of the first operand and one `w` of the second, and stores, at `(n, i, j)`,
  `√ max ((∑ₖ x(n,i,k)² + ∑ₖ y(n,j,k)²) − 2 · ∑ₖ x(n,i,k) y(n,j,k), 0)` with `y = w − ε`. The three sums reach the entry in
  three ways: the first operand's row sums are kept as a column `[4, 512, 1]` and spread along the last axis, the second
  operand's as a row `[4, 1, 512]` and spread along the middle axis, and the cross term is a matrix product contracting
  the last axes within each batch, taken after a change of float format that is the identity on the extended reals,
  into a zero accumulator. Each is read here at an index; the entry is then the specification's `rowDist` of the two rows.
-/
import proofs.«172395_j63333587746928_1_alg».proof.Proof.Gen.KernelIdeal.Skeleton
import proofs.«172395_j63333587746928_1_alg».proof.Proof.RowDistance
import Idealize.ShloMosaic.Lib.Pipeline.Value
import Idealize.ShloMosaic.Lib.ValueIdx
import Idealize.ShloMosaic.PureOps.Ideal.Laws

noncomputable section

namespace Cert.PairDist.Block

open Idealize.ShloMosaic Idealize.ShloMosaic.ValueIdx
open Cert.KernelIdeal

/-! ## Sums along the last axis, and how they are spread -/

/-- The sum over the last axis of a `[4, 512, 256]` slab, at `(n, r)`, is `∑ₖ u(n, r, k)`. -/
theorem laneSum_apply (u : FVec Ideal S4x512x256 .f32) (h : S4x512x256.Reduces [2] S4x512) (hφ : FKind.Formats .f32)
    (hacc : (0x00000000#32 : BitVec (FTy.bits .f32)) = FKind.add.neutral .f32 hφ) (n : Fin 4) (r : Fin 512) :
    multiReduction .add [2] S4x512 u 0x00000000#32 h hφ hacc (ix2 n r) = ∑ k : Fin 256, u (ix3 n r k) := by
  refine (Ideal.multiReduction_add_single u 0x00000000#32 h hφ hacc (ix2 n r)).trans ?_
  exact Finset.sum_congr rfl fun k _ => congrArg u (funext fun a => Fin.ext (by
    match a with | ⟨0, _⟩ => rfl | ⟨1, _⟩ => rfl | ⟨2, _⟩ => rfl))

/-- A `[4, 512]` table kept as a column `[4, 512, 1]` and spread along the last axis reads, at `(n, i, j)`, the table at
    `(n, i)`. -/
theorem column_apply (s : FVec Ideal S4x512 .f32) (hc : S4x512.ShapeCasts S4x512x1) (hb : S4x512x1.Broadcasts S4x512x512)
    (n : Fin 4) (i j : Fin 512) :
    broadcastTo S4x512x512 (shapeCast S4x512x1 s hc) hb (ix3 n i j) = s (ix2 n i) := by
  refine (broadcastTo_apply _ hb (ix3 n i j) (ix3 n i (0 : Fin 1)) fun a => ?_).trans
    (shapeCast_apply s hc (ix3 n i (0 : Fin 1)) (ix2 n i) ?_)
  · match a with
    | ⟨0, _⟩ => rfl
    | ⟨1, _⟩ => rfl
    | ⟨2, _⟩ => rfl
  · rw [Shape.rowMajor_val_two, Shape.rowMajor_val_three]
    show n.val * 512 + i.val = (n.val * 512 + i.val) * 1 + 0
    omega

/-- A `[4, 512]` table kept as a row `[4, 1, 512]` and spread along the middle axis reads, at `(n, i, j)`, the table at
    `(n, j)`. -/
theorem row_apply (s : FVec Ideal S4x512 .f32) (hc : S4x512.ShapeCasts S4x1x512) (hb : S4x1x512.Broadcasts S4x512x512)
    (n : Fin 4) (i j : Fin 512) :
    broadcastTo S4x512x512 (shapeCast S4x1x512 s hc) hb (ix3 n i j) = s (ix2 n j) := by
  refine (broadcastTo_apply _ hb (ix3 n i j) (ix3 n (0 : Fin 1) j) fun a => ?_).trans
    (shapeCast_apply s hc (ix3 n (0 : Fin 1) j) (ix2 n j) ?_)
  · match a with
    | ⟨0, _⟩ => rfl
    | ⟨1, _⟩ => rfl
    | ⟨2, _⟩ => rfl
  · rw [Shape.rowMajor_val_two, Shape.rowMajor_val_three]
    show n.val * 512 + j.val = (n.val * 1 + 0) * 512 + j.val
    omega

/-! ## The cross term: a product contracting the last axes within a batch -/

theorem lhs_cross_0 (i : S4x512x512.Idx) (q : dot_S4x512x256_S4x512x256_S4x512x512_2_2_1_1_0_0.contr.Idx) :
    (dot_S4x512x256_S4x512x256_S4x512x512_2_2_1_1_0_0.lhsIdx i q 0).val = (i 0).val := by
  unfold DotDims.lhsIdx
  rw [dif_pos (show (0 : Fin S4x512x256.rank) ∈ dot_S4x512x256_S4x512x256_S4x512x512_2_2_1_1_0_0.lhsBatch by decide)]
  rfl
theorem lhs_cross_1 (i : S4x512x512.Idx) (q : dot_S4x512x256_S4x512x256_S4x512x512_2_2_1_1_0_0.contr.Idx) :
    (dot_S4x512x256_S4x512x256_S4x512x512_2_2_1_1_0_0.lhsIdx i q 1).val = (i 1).val := by
  unfold DotDims.lhsIdx
  rw [dif_neg (show ¬(1 : Fin S4x512x256.rank) ∈ dot_S4x512x256_S4x512x256_S4x512x512_2_2_1_1_0_0.lhsBatch by decide), dif_pos (show (1 : Fin S4x512x256.rank) ∈ dot_S4x512x256_S4x512x256_S4x512x512_2_2_1_1_0_0.lhsNonContracting by decide)]
  rfl
theorem lhs_cross_2 (i : S4x512x512.Idx) (q : dot_S4x512x256_S4x512x256_S4x512x512_2_2_1_1_0_0.contr.Idx) :
    (dot_S4x512x256_S4x512x256_S4x512x512_2_2_1_1_0_0.lhsIdx i q 2).val = (q ⟨0, by decide⟩).val :=
  dot_S4x512x256_S4x512x256_S4x512x512_2_2_1_1_0_0.lhsIdx_val_of_single rfl i q
theorem rhs_cross_0 (i : S4x512x512.Idx) (q : dot_S4x512x256_S4x512x256_S4x512x512_2_2_1_1_0_0.contr.Idx) :
    (dot_S4x512x256_S4x512x256_S4x512x512_2_2_1_1_0_0.rhsIdx i q 0).val = (i 0).val := by
  unfold DotDims.rhsIdx
  rw [dif_pos (show (0 : Fin S4x512x256.rank) ∈ dot_S4x512x256_S4x512x256_S4x512x512_2_2_1_1_0_0.rhsBatch by decide)]
  rfl
theorem rhs_cross_1 (i : S4x512x512.Idx) (q : dot_S4x512x256_S4x512x256_S4x512x512_2_2_1_1_0_0.contr.Idx) :
    (dot_S4x512x256_S4x512x256_S4x512x512_2_2_1_1_0_0.rhsIdx i q 1).val = (i 2).val := by
  unfold DotDims.rhsIdx
  rw [dif_neg (show ¬(1 : Fin S4x512x256.rank) ∈ dot_S4x512x256_S4x512x256_S4x512x512_2_2_1_1_0_0.rhsBatch by decide), dif_pos (show (1 : Fin S4x512x256.rank) ∈ dot_S4x512x256_S4x512x256_S4x512x512_2_2_1_1_0_0.rhsNonContracting by decide)]
  rfl
theorem rhs_cross_2 (i : S4x512x512.Idx) (q : dot_S4x512x256_S4x512x256_S4x512x512_2_2_1_1_0_0.contr.Idx) :
    (dot_S4x512x256_S4x512x256_S4x512x512_2_2_1_1_0_0.rhsIdx i q 2).val = (q ⟨0, by decide⟩).val :=
  dot_S4x512x256_S4x512x256_S4x512x512_2_2_1_1_0_0.rhsIdx_val_of_single rfl i q

/-- The matrix product of two slabs into a zero accumulator, each operand first taken to the narrower float format
    (the identity here), reads at `(n, i, j)` the inner product of row `(n, i)` of the first and row `(n, j)` of the
    second. -/
theorem cross_apply (u w : FVec Ideal S4x512x256 .f32) (hlt : FTy.bits .bf16 < FTy.bits .f32) (n : Fin 4) (i j : Fin 512) :
    matmul dot_S4x512x256_S4x512x256_S4x512x512_2_2_1_1_0_0 none (truncf .bf16 u hlt) (truncf .bf16 w hlt) (constant S4x512x512 .f32 0x00000000#32) (ix3 n i j)
      = ∑ k : Fin 256, u (ix3 n i k) * w (ix3 n j k) := by
  simp only [matmul]
  rw [Ideal.matmul_constant_zero_apply, ← Equiv.sum_comp (contrEquiv1 dot_S4x512x256_S4x512x256_S4x512x512_2_2_1_1_0_0 256 rfl rfl).symm]
  refine Finset.sum_congr rfl fun k _ => ?_
  have hk := contrEquiv1_symm_val dot_S4x512x256_S4x512x256_S4x512x512_2_2_1_1_0_0 256 rfl rfl k
  have el : dot_S4x512x256_S4x512x256_S4x512x512_2_2_1_1_0_0.lhsIdx (ix3 n i j) ((contrEquiv1 dot_S4x512x256_S4x512x256_S4x512x512_2_2_1_1_0_0 256 rfl rfl).symm k) = ix3 n i k := funext fun a => Fin.ext (by
    match a with
    | ⟨0, _⟩ => exact lhs_cross_0 _ _
    | ⟨1, _⟩ => exact lhs_cross_1 _ _
    | ⟨2, _⟩ => exact (lhs_cross_2 _ _).trans hk)
  have er : dot_S4x512x256_S4x512x256_S4x512x512_2_2_1_1_0_0.rhsIdx (ix3 n i j) ((contrEquiv1 dot_S4x512x256_S4x512x256_S4x512x512_2_2_1_1_0_0 256 rfl rfl).symm k) = ix3 n j k := funext fun a => Fin.ext (by
    match a with
    | ⟨0, _⟩ => exact rhs_cross_0 _ _
    | ⟨1, _⟩ => exact rhs_cross_1 _ _
    | ⟨2, _⟩ => exact (rhs_cross_2 _ _).trans hk)
  rw [el, er]
  rfl

/-! ## The stored value at an index -/

/-- What the body stores at `(n, i, j)` of its output slab is the distance between row `(n, i)` of the first loaded
    slab and row `(n, j)` of the second. -/
theorem stored_apply (x w : Vec Ideal S4x512x256 .f32) (n : Fin 4) (i j : Fin 512) :
    Gen.k0_pay1 (F := Ideal) x w (ix3 n i j) = rowDist (fun k => x (ix3 n i k)) (fun k => w (ix3 n j k)) := by
  unfold Gen.k0_pay1 rowDist
  dsimp only
  refine congrArg Ideal.sqrt (congrArg₂ max (congrArg₂ (· - ·) (congrArg₂ (· + ·) ?_ ?_) (congrArg (twice * ·) ?_)) Ideal.ofBits_zero_f32)
  · exact (column_apply _ _ _ n i j).trans (laneSum_apply _ _ _ _ n i)
  · exact (row_apply _ _ _ n i j).trans (laneSum_apply _ _ _ _ n j)
  · exact cross_apply _ _ _ n i j

end Cert.PairDist.Block

end
-- ==== Proof.ArrayValue.lean ====
/-
  From the slabs to the whole result: after the kernel's run its output array is the specification.

  The grid has 128 steps; step `t` reads batches `4t … 4t+3` of each operand (all rows, all columns) and writes the same
  four batches of the result. By the slab lemma the step writes the specification's entries, because an entry
  `(n, i, j)` depends only on rows of batch `n`, which the step has loaded whole; and the 128 slabs tile the batch axis,
  so every entry of the result is written by the step `n / 4`.
-/
import proofs.«172395_j63333587746928_1_alg».proof.Proof.Gen.KernelIdeal.Value
import proofs.«172395_j63333587746928_1_alg».proof.Proof.BlockValue

noncomputable section

namespace Cert.PairDist.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-- One step, abstractly: if the two loaded slabs are batches `4T … 4T+3` of the arrays `A0`, `A1`, then what the body
    stores at `j` is the specification of the arrays at the entry `i` that `j` is in the result (`j` moved by `4T` along the
    batch axis). -/
theorem step_eq (A0 A1 : (⟨3, ![512, 512, 256]⟩ : Shape).Idx → EReal) (x w : Vec Ideal S4x512x256 .f32) (T : Nat)
    (hx : ∀ (n : Fin 4) (r : Fin 512) (k : Fin 256) (i' : (⟨3, ![512, 512, 256]⟩ : Shape).Idx),
      (i' 0).val = T * 4 + n.val → (i' 1).val = r.val → (i' 2).val = k.val → x (ix3 n r k) = A0 i')
    (hw : ∀ (n : Fin 4) (r : Fin 512) (k : Fin 256) (i' : (⟨3, ![512, 512, 256]⟩ : Shape).Idx),
      (i' 0).val = T * 4 + n.val → (i' 1).val = r.val → (i' 2).val = k.val → w (ix3 n r k) = A1 i')
    (j : S4x512x512.Idx) (i : (⟨3, ![512, 512, 512]⟩ : Shape).Idx)
    (h0 : (i 0).val = T * 4 + (j 0).val) (h1 : (i 1).val = (j 1).val) (h2 : (i 2).val = (j 2).val) :
    k0_pay1 (F := Ideal) x w j = dist A0 A1 i := by
  refine ((congrArg (k0_pay1 (F := Ideal) x w) (eq_ix3 j)).trans
    (Cert.PairDist.Block.stored_apply x w (j 0) (j 1) (j 2))).trans ?_
  unfold dist
  refine congrArg₂ rowDist (funext fun k => ?_) (funext fun k => ?_)
  · exact hx (j 0) (j 1) k (ix3 (i 0) (i 1) k) h0 h1 rfl
  · exact hw (j 0) (j 2) k (ix3 (i 0) (i 2) k) h0 h2 rfl

/-- The printed index maps, decided over the 128 steps: all three windows move along the batch axis only, together. -/
theorem idx_facts : ∀ t : Fin cfg0.N, win0_0.index t (0 : Fin 3) = win0_2.index t (0 : Fin 3)
    ∧ win0_1.index t (0 : Fin 3) = win0_2.index t (0 : Fin 3)
    ∧ win0_0.index t (1 : Fin 3) = 0 ∧ win0_0.index t (2 : Fin 3) = 0
    ∧ win0_1.index t (1 : Fin 3) = 0 ∧ win0_1.index t (2 : Fin 3) = 0
    ∧ win0_2.index t (1 : Fin 3) = 0 ∧ win0_2.index t (2 : Fin 3) = 0 :=
  (by decide +kernel : ∀ t : Fin grid0.N, _)

/-- Every slab of the batch axis is some step's. -/
theorem idx_onto : ∀ q : Fin 128, ∃ t : Fin cfg0.N, win0_2.index t = ![q.val, 0, 0] :=
  (by decide +kernel : ∀ q : Fin 128, ∃ t : Fin grid0.N, win0_2.index t = ![q.val, 0, 0])

/-- What step `t` writes back is slab `t` of the specification of the argument arrays. -/
theorem flushed_eq (c : Dev nD) (t : Fin cfg0.N) :
    (dats m 0 c).flushed 2 t
      = ((cfg0.win 2).blk t).view.read (Elt Ideal) (dist (V m c main_arg0) (V m c main_arg1)) := by
  rw [Cert.KernelIdeal.Value.flushed2]
  unfold out0_2
  rw [View.canon_unit_zero origin]
  simp only [View.ld_unit_zero (S := S4x512x256) origin]
  obtain ⟨e00, e10, e01, e02, e11, e12, e21, e22⟩ := idx_facts t
  funext j
  refine step_eq (V m c main_arg0) (V m c main_arg1) (iblk m c 0 t) (iblk m c 1 t) (win0_2.index t (0 : Fin 3))
    (fun n r k i' g0 g1 g2 => ?_) (fun n r k i' g0 g1 g2 => ?_) j (((cfg0.win 2).blk t).view.emb j) ?_ ?_ ?_
  · show V m c main_arg0 (((cfg0.win 0).blk t).view.emb (ix3 n r k)) = V m c main_arg0 i'
    refine congrArg (V m c main_arg0) (funext fun a => Fin.ext ?_)
    match a with
    | ⟨0, _⟩ => show win0_0.index t (0 : Fin 3) * 4 + 1 * n.val = (i' 0).val; omega
    | ⟨1, _⟩ => show win0_0.index t (1 : Fin 3) * 512 + 1 * r.val = (i' 1).val; omega
    | ⟨2, _⟩ => show win0_0.index t (2 : Fin 3) * 256 + 1 * k.val = (i' 2).val; omega
  · show V m c main_arg1 (((cfg0.win 1).blk t).view.emb (ix3 n r k)) = V m c main_arg1 i'
    refine congrArg (V m c main_arg1) (funext fun a => Fin.ext ?_)
    match a with
    | ⟨0, _⟩ => show win0_1.index t (0 : Fin 3) * 4 + 1 * n.val = (i' 0).val; omega
    | ⟨1, _⟩ => show win0_1.index t (1 : Fin 3) * 512 + 1 * r.val = (i' 1).val; omega
    | ⟨2, _⟩ => show win0_1.index t (2 : Fin 3) * 256 + 1 * k.val = (i' 2).val; omega
  · show win0_2.index t (0 : Fin 3) * 4 + 1 * (j 0).val = win0_2.index t (0 : Fin 3) * 4 + (j 0).val; omega
  · show win0_2.index t (1 : Fin 3) * 512 + 1 * (j 1).val = (j 1).val; omega
  · show win0_2.index t (2 : Fin 3) * 512 + 1 * (j 2).val = (j 2).val; omega

/-- An entry of the result is in step `t`'s slab iff each coordinate is in the slab's range on its axis. -/
theorem mem_blk (t : Fin cfg0.N) (i : S512x512x512.Idx) :
    i ∈ ((cfg0.win 2).blk t).view.set ↔ ∀ a : Fin 3, win0_2.index t a * S4x512x512.size a ≤ (i a).val ∧ (i a).val < win0_2.index t a * S4x512x512.size a + S4x512x512.size a := by
  show i ∈ ((View.whole main_v0).slice (win0_2.rect t)).set ↔ _
  rw [View.set_slice_whole, Rect.mem_set_unit]
  exact Iff.rfl

/-- Every entry of the result is written by some step: entry `(n, i, j)` by step `n / 4`. -/
theorem covered (i : S512x512x512.Idx) :
    ∃ t : Fin cfg0.N, (cfg0.win 2).flush t = true ∧ i ∈ ((cfg0.win 2).blk t).view.set := by
  have hi0 : (i 0).val < 512 := (i 0).isLt
  have hi1 : (i 1).val < 512 := (i 1).isLt
  have hi2 : (i 2).val < 512 := (i 2).isLt
  obtain ⟨t, ht⟩ := idx_onto ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- The result array after the run is the specification of the argument arrays. -/
theorem final (c : Dev nD) :
    (dats m 0 c).arrAt 2 cfg0.N = dist (m ((c : Thread nD τ).loc main_arg0)) (m ((c : Thread nD τ).loc main_arg1)) :=
  (dats m 0 c).arrAt_eq_of_cover 2 (dist (V m c main_arg0) (V m c main_arg1)) (fun t _ => flushed_eq m c t) covered

/-- The kernel's run: it terminates with the result array at the specification of its arguments, and the arguments as
    they were. -/
theorem run : θ_run defs (onTc (τ := τ) (main (F := Ideal))) ⟨m, fun _ => 0, ρ⟩ fun r => ∀ c : Dev nD,
      r.2.mem ((c : Thread nD τ).loc main_v0) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.PairDist.Array

end
-- ==== Proof.ReferenceValue.lean ====
/-
  The reference program computes the specification.

  Read one operation at a time, the reference's result at `(n, i, j)` is
  `√ max (((0 + ∑ₖ a(n,i,k)²) + (0 + ∑ₖ (b(n,j,k) − ε)²)) − 2 · ∑ₖ a(n,i,k) (b(n,j,k) − ε), 0)`: the two row sums are
  broadcast along the missing axis, the product of the two operands contracts their last axes within a batch. Each
  sum starts from the zero word, which is `0`, and `0 + s = s`; the rest is the specification letter for letter.
-/
import proofs.«172395_j63333587746928_1_alg».proof.Proof.Gen.ReferenceIdeal.Read
import proofs.«172395_j63333587746928_1_alg».proof.Proof.RowDistance

noncomputable section

namespace Cert.PairDist.Reference

open Idealize.ShloMosaic Idealize.ShloMosaic.ValueIdx
open Cert.ReferenceIdeal Cert.ReferenceIdeal.Gen Cert.ReferenceIdeal.Read

/-- The reference's last stage is the distance matrix of its two arguments. -/
theorem result_eq (x0 x1 : (⟨S512x512x256, .f32⟩ : BufTy).Contents (Elt Ideal)) :
    val_main_v17 (F := Ideal) x0 x1 = Cert.PairDist.dist x0 x1 := by
  funext i
  -- where each stage reads its operand: rows (n, i, ·) of the first argument, rows (n, j, ·) of the second
  have e1 : ∀ k : Fin 256, idx_main_v3 (idx_main_v7 (idx_main_v9 i)) k = ix3 (i 0) (i 1) k := fun k =>
    funext fun a => by match a with | ⟨0, _⟩ => rfl | ⟨1, _⟩ => rfl | ⟨2, _⟩ => rfl
  have e2 : ∀ k : Fin 256, idx_main_v5 (idx_main_v8 (idx_main_v10 i)) k = ix3 (i 0) (i 2) k := fun k =>
    funext fun a => by match a with | ⟨0, _⟩ => rfl | ⟨1, _⟩ => rfl | ⟨2, _⟩ => rfl
  have e3 : ∀ k : Fin 256, lidx_main_v6 i k = ix3 (i 0) (i 1) k := fun k =>
    funext fun a => by match a with | ⟨0, _⟩ => rfl | ⟨1, _⟩ => rfl | ⟨2, _⟩ => rfl
  have e4 : ∀ k : Fin 256, ridx_main_v6 i k = ix3 (i 0) (i 2) k := fun k =>
    funext fun a => by match a with | ⟨0, _⟩ => rfl | ⟨1, _⟩ => rfl | ⟨2, _⟩ => rfl
  rw [val_main_v17_apply, val_main_v16_apply, val_main_v14_apply, val_main_v11_apply, val_main_v9_apply,
    val_main_v7_apply, val_main_v3_apply, val_main_v10_apply, val_main_v8_apply, val_main_v5_apply,
    val_main_v13_apply, val_main_v12_apply, val_main_v6_apply, val_main_v15_apply]
  simp only [val_main_v2_apply, val_main_v4_apply, val_main_v1_apply, val_main_v0_apply, val_main_cst_apply,
    val_main_cst_0_apply, val_main_cst_1_apply, val_main_cst_2_apply, val_main_cst_3_apply, e1, e2, e3, e4,
    Ideal.hostUnary_sqrt_def, Ideal.maximumf_def, Ideal.subf_def, Ideal.addf_def, Ideal.mulf_def, Ideal.ofBits_def,
    Ideal.ofBits_zero_f32, zero_add]
  rfl

end Cert.PairDist.Reference

end
-- ==== Proof.lean ====
/-
  Batched pairwise Euclidean distance: for two batches of row vectors `a, b : [512, 512, 256]` the result
  `[512, 512, 512]` holds at `(n, i, j)` the distance between row `(n, i)` of `a` and row `(n, j)` of `b` lowered entrywise
  by the shift `ε`, computed through `‖x − y‖² = ‖x‖² + ‖y‖² − 2 x·y` and clamped at zero before the root.

  The kernel walks the batch axis four batches at a time; within a step it forms the two families of row sums on the
  vector unit and the cross term as a matrix product (after a change of float format that is the identity on the
  extended reals), and stores `√ max (‖x‖² + ‖y‖² − 2 x·y, 0)`. The reference computes the same three sums over the whole
  arrays. Both spell the same sums of the same products in the same order, with the same words for `ε`, `2` and `0`, so
  the two results agree entry by entry on all extended reals: finiteness of the inputs is never used.

  * `Proof/RowDistance.lean`: the specification `dist`, one entry as a function `rowDist` of two rows;
  * `Proof/ReferenceValue.lean`: the reference's result is `dist` of its arguments;
  * `Proof/BlockValue.lean`: what one step of the kernel stores, at an index, is `rowDist` of the rows it loaded;
  * `Proof/ArrayValue.lean`: the steps' slabs tile the result, so the kernel's result array is `dist` of its arguments.
  The kernel's two frames are the generated ones, the reference's frame is its generated run, and the idealization
  rewrote nothing.
-/
import proofs.«172395_j63333587746928_1_alg».proof.Defs
import proofs.«172395_j63333587746928_1_alg».proof.Proof.Gen.Kernel
import proofs.«172395_j63333587746928_1_alg».proof.Proof.Gen.Kernel.Skeleton
import proofs.«172395_j63333587746928_1_alg».proof.Proof.Gen.Kernel.Launch
import proofs.«172395_j63333587746928_1_alg».proof.Proof.Gen.Kernel.Points
import proofs.«172395_j63333587746928_1_alg».proof.Proof.Gen.Kernel.Frame
import proofs.«172395_j63333587746928_1_alg».proof.Proof.Gen.KernelIdeal
import proofs.«172395_j63333587746928_1_alg».proof.Proof.Gen.KernelIdeal.Skeleton
import proofs.«172395_j63333587746928_1_alg».proof.Proof.Gen.KernelIdeal.Launch
import proofs.«172395_j63333587746928_1_alg».proof.Proof.Gen.KernelIdeal.Points
import proofs.«172395_j63333587746928_1_alg».proof.Proof.Gen.KernelIdeal.Frame
import proofs.«172395_j63333587746928_1_alg».proof.Proof.Gen.ReferenceIdeal
import proofs.«172395_j63333587746928_1_alg».proof.Proof.Gen.KernelIdeal.Value
import proofs.«172395_j63333587746928_1_alg».proof.Proof.Gen.ReferenceIdeal.Run
import proofs.«172395_j63333587746928_1_alg».proof.Proof.Gen.ReferenceIdeal.Read
import proofs.«172395_j63333587746928_1_alg».proof.Proof.Gen.Pre_finite_inputs
import proofs.«172395_j63333587746928_1_alg».proof.Proof.ArrayValue
import proofs.«172395_j63333587746928_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run terminates with the arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are both the distance matrix `dist` of the
    arguments, which agree. -/
theorem algebraic : Cert.algebraic_KernelIdeal_ReferenceIdeal := by
  intro m ρ m' ρ' _ hagree
  refine ⟨_, Cert.PairDist.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.PairDist.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
